-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384 : Shape := ⟨1, ![16384]⟩
abbrev S1000x2048 : Shape := ⟨2, ![1000, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1000x2048 : S_.BroadcastsInDim S1000x2048 (![] : Fin 0 → Fin S1000x2048.rank)
  reducesTo_S1000x2048_S_d0_1 : S1000x2048.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16384x2048 .f32) (main_arg1 : IVec S16384 32) (main_arg2 : FVec F S1000x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S1000x2048 .f32 := Host.absf main_arg2
  let main_cst_0 : FVec F S_ .f32 := constant S_ .f32 0x7F800000#32
  let main_v5 : FVec F S1000x2048 .f32 := broadcastInDim S1000x2048 ![] bcast_S_S1000x2048 main_cst_0
  let main_v6 : IVec S1000x2048 1 := cmpf .olt main_v4 main_v5
  let main_c_1 : IVec S_ 1 := constantI S_ 1 1#1
  let main_v7 : IVec S_ 1 := (fun x v => Host.reduce IntOp.andi x v reducesTo_S1000x2048_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 1 := constantI S_ 1 1#1
  let main_v11 : IVec S_ 1 := (fun x v => Host.reduce IntOp.andi x v reducesTo_S16384_S_d0 h_S_) main_v10 main_c_3
  let main_v12 : IVec S_ 1 := andi main_v8 main_v11
  let main_c_4 : IVec S_ 32 := constantI S_ 32 1000#32
  let main_v13 : IVec S16384 32 := broadcastInDim S16384 ![] bcast_S_S16384 main_c_4
  let main_v14 : IVec S16384 1 := cmpi .slt main_arg1 main_v13
  let main_c_5 : IVec S_ 1 := constantI S_ 1 1#1
  let main_v15 : IVec S_ 1 := (fun x v => Host.reduce IntOp.andi x v reducesTo_S16384_S_d0 h_S_) main_v14 main_c_5
  fn_part1 (F := F) main_v12 main_v15
-- ==== Kernel.lean ====
abbrev S16384x2048 : Shape := ⟨2, ![16384, 2048]⟩
abbrev S16384 : Shape := ⟨1, ![16384]⟩
abbrev S1000x2048 : Shape := ⟨2, ![1000, 2048]⟩
abbrev S16384x1 : Shape := ⟨2, ![16384, 1]⟩
abbrev S16x2048 : Shape := ⟨2, ![16, 2048]⟩
abbrev S512x2048 : Shape := ⟨2, ![512, 2048]⟩
abbrev S512x1 : Shape := ⟨2, ![512, 1]⟩
abbrev S8x2048 : Shape := ⟨2, ![8, 2048]⟩
abbrev S512x1000 : Shape := ⟨2, ![512, 1000]⟩
abbrev S2048 : Shape := ⟨1, ![2048]⟩
abbrev S1x2048 : Shape := ⟨2, ![1, 2048]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S1000x2048, .f32⟩
  | .hbm, ⟨3, _⟩ => ⟨S16384x1, .i32⟩
  | .hbm, ⟨4, _⟩ => ⟨S1000x2048, .bf16⟩
  | .hbm, ⟨5, _⟩ => ⟨S16x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x1, .i32⟩
  | .local _ .vmem, ⟨3, _⟩ => ⟨S512x1, .i32⟩
  | .local _ .vmem, ⟨4, _⟩ => ⟨S1000x2048, .bf16⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v31 : BitVec 1 := Scalar.cmpi .eq arg1 c15_i32
  let v32 : BitVec 32 := Scalar.extui v31
  let c0_i32_13 : BitVec 32 := 0#32
  let v33 : BitVec 1 := Scalar.cmpi .ne v32 c0_i32_13
  v33

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1000x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16384_S16384x1 : S16384.ShapeCasts S16384x1
  bitsLt_bf16_f32 : FTy.bits .bf16 < FTy.bits .f32
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1000_d1_w32 : S512x1000.Iotas .tc 32 [1]
  broadcasts_S512x1_S512x1000 : S512x1.Broadcasts S512x1000
  natLt_1_32 : 1 < 32
  inb_S1000x2048_S1000x2048_0_0 : ∀ a, (![0, 0] : Fin 2 → Nat) a + S1000x2048.size a ≤ S1000x2048.size a
  h_S1000x2048 : 0 < S1000x2048.numel
  shapeCasts_S1000x2048_S1000x2048 : S1000x2048.ShapeCasts S1000x2048
  inb_S512x2048_S512x2048_0_0 : ∀ a, (![0, 0] : Fin 2 → Nat) a + S512x2048.size a ≤ S512x2048.size a
  h_S512x2048 : 0 < S512x2048.numel
  reduces_S512x2048_S2048 : S512x2048.Reduces [0] S2048
  shapeCasts_S2048_S1x2048 : S2048.ShapeCasts S1x2048
  iota_S8x2048_d0_w32 : S8x2048.Iotas .tc 32 [0]
  shapeCasts_S1x2048_S1x2048 : S1x2048.ShapeCasts S1x2048
  broadcasts_S1x2048_S8x2048 : S1x2048.Broadcasts S8x2048
  reducesTo_S16x2048_S_d0_1 : S16x2048.ReducesTo [0, 1] S_
  h_S_ : 0 < S_.numel
  dot_S512x1000_S1000x2048_S512x2048_1_0_0_1_n_n_wf : DotDims.WF S512x1000 S1000x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .i32 = 32 ∨ (Rect.block (s := S16384x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x2048.size a ≤ S1000x2048.size a
  hwx0_2 : ∀ i : grid0.Coords, EltTy.bits .bf16 = 32 ∨ (Rect.block (s := S1000x2048) S1000x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x2048.size a ≤ S16x2048.size a
  hwx0_3 : ∀ i : grid0.Coords, EltTy.bits .f32 = 32 ∨ (Rect.block (s := S16x2048) S8x2048.size (cc0_transform_3 i) (hinb0_3 i)).WholeWords (EltTy.packing .f32)

variable [Facts₀]

def dot_S512x1000_S1000x2048_S512x2048_1_0_0_1_n_n : DotDims S512x1000 S1000x2048 S512x2048 where
  lhsContracting := [1]
  rhsContracting := [0]
  lhsNonContracting := [0]
  rhsNonContracting := [1]
  lhsBatch := []
  rhsBatch := []
  wf := dot_S512x1000_S1000x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1000x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x2048 : Shape := ⟨2, ![16384, 2048]⟩
abbrev S16384 : Shape := ⟨1, ![16384]⟩
abbrev S1000x2048 : Shape := ⟨2, ![1000, 2048]⟩
abbrev S_ : Shape := ⟨0, ![]⟩
abbrev S16384x1 : Shape := ⟨2, ![16384, 1]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S1000x2048, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  reducesTo_S16384x2048_S_d0_1 : S16384x2048.ReducesTo [0, 1] S_
  h_S_ : 0 < S_.numel
  gather_S1000x2048_S16384x1_S16384x2048_1_0_n_n_0_1_12048_wf : GatherDims.WF S1000x2048 S16384x1 S16384x2048 [1] [0] [] [0] [] 1 ![1, 2048]

variable [Facts₀]

def gather_S1000x2048_S16384x1_S16384x2048_1_0_n_n_0_1_12048 : GatherDims S1000x2048 S16384x1 S16384x2048 where
  offsetDims := [1]
  collapsedSliceDims := [0]
  operandBatchingDims := []
  startIndicesBatchingDims := []
  startIndexMap := [0]
  indexVectorDim := 1
  sliceSizes := ![1, 2048]
  wf := gather_S1000x2048_S16384x1_S16384x2048_1_0_n_n_0_1_12048_wf

class Facts : Prop extends Facts₀ where

variable [Facts]
-- ==== Proof.Pieces.lean ====
import proofs.«429316_j15917148799632_3_alg».proof.Proof.Gen.KernelIdeal.Frame
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-!
  What each control case of the kernel body leaves behind, as values: the accumulator (and, at a core's last tile, the
  output block) holds the accumulate step's value of the point's three input blocks and of what the accumulator held —
  the zero block at a core's first tile, where the body has just reset it.
-/

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle tile: the accumulator ends at the accumulate step over what it held. -/
theorem sout_B (c : Dev nD) (i : grid0.Coords) (arg2 : Memref sig .tc .vmem S512x2048 .f32) (harg2 : arg2.IsWhole) (arg3 : Memref sig .tc .vmem S512x1 .i32) (harg3 : arg3.IsWhole) (arg4 : Memref sig .tc .vmem S1000x2048 .bf16) (harg4 : arg4.IsWhole) (arg5 : Memref sig .tc .vmem S8x2048 .f32) (harg5 : arg5.IsWhole) (arg6 : Memref sig .tc .vmem S8x2048 .f32) (harg6 : arg6.IsWhole) (hc0 : ¬cond0_0 i) (hc1 : ¬cond0_1 i)
    (x0 : Vec F S512x2048 .f32) (x1 : Vec F S512x1 .i32) (x2 : Vec F S1000x2048 .bf16) (xs0 : Vec F S8x2048 .f32) :
    sout0_B_0 c i arg2 harg2 arg3 harg3 arg4 harg4 arg5 harg5 arg6 harg6 hc0 hc1 x0 x1 x2 xs0 = k0_pay2 x1 x2 x0 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread, View.ld_unit_zero (S := S512x1) hz, View.ld_unit_zero (S := S1000x2048) hz, View.ld_unit_zero (S := S512x2048) hz, View.ld_unit_zero (S := S8x2048) hz]

/-- A core's first tile: the accumulator is reset to the zero block, read back, and ends at the accumulate step over it. -/
theorem sout_A (c : Dev nD) (i : grid0.Coords) (arg2 : Memref sig .tc .vmem S512x2048 .f32) (harg2 : arg2.IsWhole) (arg3 : Memref sig .tc .vmem S512x1 .i32) (harg3 : arg3.IsWhole) (arg4 : Memref sig .tc .vmem S1000x2048 .bf16) (harg4 : arg4.IsWhole) (arg5 : Memref sig .tc .vmem S8x2048 .f32) (harg5 : arg5.IsWhole) (arg6 : Memref sig .tc .vmem S8x2048 .f32) (harg6 : arg6.IsWhole) (hc0 : cond0_0 i) (hc1 : ¬cond0_1 i)
    (x0 : Vec F S512x2048 .f32) (x1 : Vec F S512x1 .i32) (x2 : Vec F S1000x2048 .bf16) :
    sout0_A_0 c i arg2 harg2 arg3 harg3 arg4 harg4 arg5 harg5 arg6 harg6 hc0 hc1 x0 x1 x2 = k0_pay2 x1 x2 x0 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S8x2048) hz, View.readCov_unit_zero (S := S8x2048) _ hz]
  simp only [View.readAt_eq_ld, harg2.read_unread, harg3.read_unread, harg4.read_unread, harg6.read_unread, View.ld_unit_zero (S := S512x1) hz, View.ld_unit_zero (S := S1000x2048) hz, View.ld_unit_zero (S := S512x2048) hz, View.ld_unit_zero (S := S8x2048) hz]

/-- A core's last tile: the accumulator as at a middle tile … -/
theorem sout_C (c : Dev nD) (i : grid0.Coords) (arg2 : Memref sig .tc .vmem S512x2048 .f32) (harg2 : arg2.IsWhole) (arg3 : Memref sig .tc .vmem S512x1 .i32) (harg3 : arg3.IsWhole) (arg4 : Memref sig .tc .vmem S1000x2048 .bf16) (harg4 : arg4.IsWhole) (arg5 : Memref sig .tc .vmem S8x2048 .f32) (harg5 : arg5.IsWhole) (arg6 : Memref sig .tc .vmem S8x2048 .f32) (harg6 : arg6.IsWhole) (hc0 : ¬cond0_0 i) (hc1 : cond0_1 i)
    (x0 : Vec F S512x2048 .f32) (x1 : Vec F S512x1 .i32) (x2 : Vec F S1000x2048 .bf16) (xs0 : Vec F S8x2048 .f32) :
    sout0_C_0 c i arg2 harg2 arg3 harg3 arg4 harg4 arg5 harg5 arg6 harg6 hc0 hc1 x0 x1 x2 xs0 = k0_pay2 x1 x2 x0 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread, View.ld_unit_zero (S := S512x1) hz, View.ld_unit_zero (S := S1000x2048) hz, View.ld_unit_zero (S := S512x2048) hz, View.ld_unit_zero (S := S8x2048) hz]

/-- … and the output block is a copy of it. -/
theorem out_C (c : Dev nD) (i : grid0.Coords) (arg2 : Memref sig .tc .vmem S512x2048 .f32) (harg2 : arg2.IsWhole) (arg3 : Memref sig .tc .vmem S512x1 .i32) (harg3 : arg3.IsWhole) (arg4 : Memref sig .tc .vmem S1000x2048 .bf16) (harg4 : arg4.IsWhole) (arg5 : Memref sig .tc .vmem S8x2048 .f32) (harg5 : arg5.IsWhole) (arg6 : Memref sig .tc .vmem S8x2048 .f32) (harg6 : arg6.IsWhole) (hc0 : ¬cond0_0 i) (hc1 : cond0_1 i)
    (x0 : Vec F S512x2048 .f32) (x1 : Vec F S512x1 .i32) (x2 : Vec F S1000x2048 .bf16) (xs0 : Vec F S8x2048 .f32) :
    out0_C_3 c i arg2 harg2 arg3 harg3 arg4 harg4 arg5 harg5 arg6 harg6 hc0 hc1 x0 x1 x2 xs0 = k0_pay2 x1 x2 x0 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S8x2048) _ hz]
  simp only [View.readAt_eq_ld, harg2.read_unread, harg3.read_unread, harg4.read_unread, harg6.read_unread, View.ld_unit_zero (S := S512x1) hz, View.ld_unit_zero (S := S1000x2048) hz, View.ld_unit_zero (S := S512x2048) hz, View.ld_unit_zero (S := S8x2048) hz]

end Cert.KernelIdeal.Pieces

end
-- ==== Proof.Blocks.lean ====
import proofs.«429316_j15917148799632_3_alg».proof.Proof.Gen.KernelIdeal.Frame
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-!
  The three input blocks of a grid point read at an index, against the program's argument arrays: tile `t` of the
  samples is rows `512 t … 512 t + 511` of `x`; the labels' block is the same rows of the label vector (the host
  reshapes it to a column first); the table's block is the whole table, which the host narrows to bf16 first — at the
  ideal instance a narrowing is the identity.
-/

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The sample block, the label block and the table block of grid point `t`, at their literal types. -/
abbrev xblk (c : Dev nD) (t : Fin cfg0.N) : Vec F S512x2048 .f32 := iblk m c 0 t
abbrev lblk (c : Dev nD) (t : Fin cfg0.N) : Vec F S512x1 .i32 := iblk m c 1 t
abbrev cblk (c : Dev nD) (t : Fin cfg0.N) : Vec F S1000x2048 .bf16 := iblk m c 2 t

/-- The block indices of the three input windows at grid point `t`: tile `t` along the rows for samples and labels,
    the one block for the table. -/
theorem idx_facts : ∀ t : Fin cfg0.N, win0_0.index t 0 = t.val ∧ win0_0.index t 1 = 0 ∧ win0_1.index t 0 = t.val ∧ win0_1.index t 1 = 0
    ∧ win0_2.index t 0 = 0 ∧ win0_2.index t 1 = 0 :=
  (by decide +kernel : ∀ t : Fin grid0.N, win0_0.index t 0 = t.val ∧ win0_0.index t 1 = 0 ∧ win0_1.index t 0 = t.val ∧ win0_1.index t 1 = 0
    ∧ win0_2.index t 0 = 0 ∧ win0_2.index t 1 = 0)

/-- The label column the region finds: the host's reshape of the label vector. -/
theorem V_labels (c : Dev nD) :
    (V m c main_v0 : Vec F S16384x1 .i32) = shapeCast S16384x1 (m ((c : Thread nD τ).loc main_arg1)) shapeCasts_S16384_S16384x1 := by
  show StableHlo.after hostOps0 (fun b => m (c, b)) (Proc.devRef .tc main_v0) = _
  after_results
  rfl

/-- The table the region finds: the host's narrowing of the table. -/
theorem V_table (c : Dev nD) :
    (V m c main_v1 : Vec F S1000x2048 .bf16) = truncf .bf16 (m ((c : Thread nD τ).loc main_arg2)) bitsLt_bf16_f32 := by
  show StableHlo.after hostOps0 (fun b => m (c, b)) (Proc.devRef .tc main_v1) = _
  after_results

/-- Row `q` of the sample block at point `t` is sample `512 t + q`. -/
theorem xblk_apply (c : Dev nD) (t : Fin cfg0.N) (q : Fin 512) (f : Fin 2048) (R : Fin 16384) (hR : R.val = 512 * t.val + q.val) :
    xblk m c t (ix2 q f) = m ((c : Thread nD τ).loc main_arg0) (ix2 R f) := by
  unfold xblk iblk
  rw [View.read_apply]
  show V m c main_arg0 _ = _
  rw [V_main_arg0]
  congr 1
  funext a
  apply Fin.ext
  match a with
  | ⟨0, _⟩ => show win0_0.index t 0 * 512 + 1 * q.val = R.val; rw [(idx_facts t).1]; omega
  | ⟨1, _⟩ => show win0_0.index t 1 * 2048 + 1 * f.val = f.val; rw [(idx_facts t).2.1]; omega

/-- Row `q` of the label block at point `t` is the label of sample `512 t + q`. -/
theorem lblk_apply (c : Dev nD) (t : Fin cfg0.N) (q : Fin 512) (R : Fin 16384) (hR : R.val = 512 * t.val + q.val) :
    lblk m c t (ix2 q 0) = m ((c : Thread nD τ).loc main_arg1) (ix1 R) := by
  unfold lblk iblk
  rw [View.read_apply]
  show V m c main_v0 _ = _
  rw [V_labels]
  refine (shapeCast_apply _ _ _ (ix1 R) ?_).trans rfl
  rw [Shape.rowMajor_val_one, Shape.rowMajor_val_two]
  show R.val = (win0_1.index t 0 * 512 + 1 * q.val) * 1 + (win0_1.index t 1 * 1 + 1 * 0)
  rw [(idx_facts t).2.2.1, (idx_facts t).2.2.2.1]; omega

/-- The table block is the whole table, narrowed. -/
theorem cblk_apply (c : Dev nD) (t : Fin cfg0.N) (k : Fin 1000) (f : Fin 2048) :
    cblk m c t (ix2 k f) = (truncf .bf16 (m ((c : Thread nD τ).loc main_arg2)) bitsLt_bf16_f32 : Vec F S1000x2048 .bf16) (ix2 k f) := by
  unfold cblk iblk
  rw [View.read_apply]
  show V m c main_v1 _ = _
  rw [V_table]
  congr 1
  funext a
  apply Fin.ext
  match a with
  | ⟨0, _⟩ => show win0_2.index t 0 * 1000 + 1 * k.val = k.val; rw [(idx_facts t).2.2.2.2.1]; omega
  | ⟨1, _⟩ => show win0_2.index t 1 * 2048 + 1 * f.val = f.val; rw [(idx_facts t).2.2.2.2.2]; omega

end Cert.KernelIdeal.Blocks

end
-- ==== Proof.Spec.lean ====
/-
  The mathematics both programs compute, over plain coordinate functions: a table of 1000 centre rows,
  16384 samples each carrying a label word, and the loss
      (∑ over samples R and features f of (x R f - centre(label R) f)²) / 32768.
  The kernel never gathers: it multiplies the one-hot row of the label (a 0/1 row of length 1000) into the
  table, so the "gathered" entry is the sum over classes k of onehot(label R, k) · c k f. It accumulates
  the column sums of each 512-row tile into row 0 of an 8-row accumulator, sixteen tiles per core, and
  writes one 8-row block per core; the host then sums the 16 × 2048 array it returns.
-/
import Mathlib.Data.EReal.Basic
import Mathlib.Data.EReal.Operations
import Mathlib.Algebra.BigOperators.Fin
import Idealize.ShloMosaic.PureOps.Ideal

noncomputable section

open scoped BigOperators

namespace Cert.CL

/-- The one-hot weight of class `k` for the label word `l`: `1` where the word is `k`, else `0`. -/
def oh (l : BitVec 32) (k : Fin 1000) : EReal := if l = BitVec.ofNat 32 k.val then 1 else 0

/-- The row the one-hot product picks for sample `R`: `∑ k, onehot(label R, k) · c k f`. -/
def gath (lab : Fin 16384 → BitVec 32) (c : Fin 1000 → Fin 2048 → EReal) (R : Fin 16384) (f : Fin 2048) : EReal :=
  ∑ k : Fin 1000, oh (lab R) k * c k f

/-- The squared difference of sample `R`, feature `f`, against a gathered table `g`. -/
def sqd (x g : Fin 16384 → Fin 2048 → EReal) (R : Fin 16384) (f : Fin 2048) : EReal :=
  (x R f - g R f) * (x R f - g R f)

/-- Row `q` of tile `s` is sample `512 s + q`. -/
def row (s : Fin 32) (q : Fin 512) : Fin 16384 := ⟨512 * s.val + q.val, by have := s.isLt; have := q.isLt; omega⟩

/-- The column sums of tile `s`: what one grid point adds into row 0 of the accumulator. -/
def part (E : Fin 16384 → Fin 2048 → EReal) (s : Fin 32) (f : Fin 2048) : EReal := ∑ q : Fin 512, E (row s q) f

/-- Tile `j` of core `o`. -/
def tile (o : Fin 2) (j : Fin 16) : Fin 32 := ⟨16 * o.val + j.val, by have := o.isLt; have := j.isLt; omega⟩

/-- The 16 × 2048 array the kernel returns: core `o`'s block is rows `8 o … 8 o + 7`, its row 0 the sum of the
    core's sixteen tile sums, its other rows zero. -/
def outArr (E : Fin 16384 → Fin 2048 → EReal) (r : Fin 16) (f : Fin 2048) : EReal :=
  if r.val % 8 = 0 then ∑ j : Fin 16, part E (tile ⟨r.val / 8, by have := r.isLt; omega⟩ j) f else 0

/-- The total the reference sums. -/
def total (E : Fin 16384 → Fin 2048 → EReal) : EReal := ∑ R : Fin 16384, ∑ f : Fin 2048, E R f

/-- The loss: the total over 2 · 16384 = 32768 (the word `0x47000000` is the f32 32768.0). -/
def lossVal (E : Fin 16384 → Fin 2048 → EReal) : EReal :=
  Idealize.ShloMosaic.Ideal.div (total E) (Idealize.ShloMosaic.Ideal.ofBits .f32 0x47000000#32)

end Cert.CL

end
-- ==== Proof.Payload.lean ====
/-
  The kernel body's two stored values read at an index, at the ideal instance.
-/
import proofs.«429316_j15917148799632_3_alg».proof.Proof.Gen.KernelIdeal.Skeleton
import proofs.«429316_j15917148799632_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Pay

open Cert.KernelIdeal Cert.KernelIdeal.Gen Cert.CL

/-- The equality bit of two words is set exactly when the words are equal. -/
theorem cmpi_eq_one_iff {w : Nat} (a b : BitVec w) : IntOp.cmpi .eq a b = 1#1 ↔ a = b := by
  show BitVec.ofBool (a == b) = 1#1 ↔ a = b
  by_cases h : a = b
  · have hb : (a == b) = true := beq_iff_eq.mpr h
    rw [hb]; exact ⟨fun _ => h, fun _ => rfl⟩
  · have hb : (a == b) = false := beq_eq_false_iff_ne.mpr h
    rw [hb]; exact ⟨fun hc => absurd hc (by decide), fun hc => absurd hc h⟩

/-- The one-hot entry: the equality bit of the label word against the column's word, widened and converted, is the
    one-hot weight. -/
theorem onehot_entry (l : BitVec 32) (k : Fin 1000) :
    FloatOps.sitofp (F := Ideal) .f32 ((IntOp.cmpi .eq l (BitVec.ofNat 32 k.val)).setWidth 32) = oh l k := by
  unfold oh
  by_cases h : l = BitVec.ofNat 32 k.val
  · rw [if_pos h, h]
    have e1 : IntOp.cmpi .eq (BitVec.ofNat 32 k.val) (BitVec.ofNat 32 k.val) = 1#1 := (cmpi_eq_one_iff _ _).mpr rfl
    rw [e1]
    show ((((1#1 : BitVec 1).setWidth 32).toInt : ℝ) : EReal) = 1
    have e2 : ((1#1 : BitVec 1).setWidth 32).toInt = 1 := by decide
    rw [e2]
    simp
  · rw [if_neg h]
    have e1 : IntOp.cmpi .eq l (BitVec.ofNat 32 k.val) = 0#1 := by
      apply eq_zero_of_ne_one
      intro hc
      exact h ((cmpi_eq_one_iff _ _).mp hc)
    rw [e1]
    show ((((0#1 : BitVec 1).setWidth 32).toInt : ℝ) : EReal) = 0
    have e2 : ((0#1 : BitVec 1).setWidth 32).toInt = 0 := by decide
    rw [e2]
    simp

/-- A column [a,1] broadcast along the second axis reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-hot matrix at (q, k). -/
theorem onehot_apply (v3 : IVec S512x1 32) (q : Fin 512) (k : Fin 1000) :
    (truncf .bf16 (sitofp .f32 (extui 32 (cmpi .eq (broadcastTo S512x1000 v3 broadcasts_S512x1_S512x1000)
        (iota .tc S512x1000 32 [1] iota_S512x1000_d1_w32)) natLt_1_32)) bitsLt_bf16_f32 : FVec Ideal S512x1000 .bf16) (ix2 q k)
      = oh (v3 (ix2 q 0)) k := by
  show FloatOps.sitofp (F := Ideal) .f32 ((IntOp.cmpi .eq (broadcastTo S512x1000 v3 broadcasts_S512x1_S512x1000 (ix2 q k))
        (iota .tc S512x1000 32 [1] iota_S512x1000_d1_w32 (ix2 q k))).setWidth 32) = _
  rw [broadcastTo_a1_ab_apply, iota_single_apply]
  exact onehot_entry _ k

/-- On the left operand's row axis the product reads the result's row. -/
theorem lhs_axis0 (j : S512x2048.Idx) (k : dot_S512x1000_S1000x2048_S512x2048_1_0_0_1_n_n.contr.Idx) :
    (dot_S512x1000_S1000x2048_S512x2048_1_0_0_1_n_n.lhsIdx j k 0).val = (j 0).val := by
  simp [DotDims.lhsIdx, dot_S512x1000_S1000x2048_S512x2048_1_0_0_1_n_n]; rfl

/-- On the left operand's column axis it reads the contracted coordinate. -/
theorem lhs_axis1 (j : S512x2048.Idx) (k : dot_S512x1000_S1000x2048_S512x2048_1_0_0_1_n_n.contr.Idx) :
    (dot_S512x1000_S1000x2048_S512x2048_1_0_0_1_n_n.lhsIdx j k 1).val = (k ⟨0, by decide⟩).val :=
  DotDims.lhsIdx_val_of_single _ rfl j k

/-- On the right operand's row axis it reads the contracted coordinate. -/
theorem rhs_axis0 (j : S512x2048.Idx) (k : dot_S512x1000_S1000x2048_S512x2048_1_0_0_1_n_n.contr.Idx) :
    (dot_S512x1000_S1000x2048_S512x2048_1_0_0_1_n_n.rhsIdx j k 0).val = (k ⟨0, by decide⟩).val :=
  DotDims.rhsIdx_val_of_single _ rfl j k

/-- On the right operand's column axis it reads the result's column. -/
theorem rhs_axis1 (j : S512x2048.Idx) (k : dot_S512x1000_S1000x2048_S512x2048_1_0_0_1_n_n.contr.Idx) :
    (dot_S512x1000_S1000x2048_S512x2048_1_0_0_1_n_n.rhsIdx j k 1).val = (j 1).val := by
  simp [DotDims.rhsIdx, dot_S512x1000_S1000x2048_S512x2048_1_0_0_1_n_n]; rfl

/-- The product into the zero block, at (q, f): the sum over the 1000 contracted positions. -/
theorem matmul_entry (A : FVec Ideal S512x1000 .bf16) (B : FVec Ideal S1000x2048 .bf16) (q : Fin 512) (f : Fin 2048) :
    matmul dot_S512x1000_S1000x2048_S512x2048_1_0_0_1_n_n none A B (constant (F := Ideal) S512x2048 .f32 0x00000000#32) (ix2 q f)
      = ∑ k : Fin 1000, A (ix2 q k) * B (ix2 k f) := by
  show FloatOps.matmul _ none A B _ (ix2 q f) = _
  rw [Ideal.matmul_constant_zero_apply,
    ← Equiv.sum_comp (contrEquiv1 dot_S512x1000_S1000x2048_S512x2048_1_0_0_1_n_n 1000 rfl rfl).symm]
  refine Finset.sum_congr rfl fun k _ => ?_
  have hk := contrEquiv1_symm_val dot_S512x1000_S1000x2048_S512x2048_1_0_0_1_n_n 1000 rfl rfl k
  have hl : dot_S512x1000_S1000x2048_S512x2048_1_0_0_1_n_n.lhsIdx (ix2 q f)
      ((contrEquiv1 dot_S512x1000_S1000x2048_S512x2048_1_0_0_1_n_n 1000 rfl rfl).symm k) = ix2 q k := by
    funext ax; apply Fin.ext
    match ax with
    | ⟨0, _⟩ => exact lhs_axis0 _ _
    | ⟨1, _⟩ => exact (lhs_axis1 _ _).trans hk
  have hr : dot_S512x1000_S1000x2048_S512x2048_1_0_0_1_n_n.rhsIdx (ix2 q f)
      ((contrEquiv1 dot_S512x1000_S1000x2048_S512x2048_1_0_0_1_n_n 1000 rfl rfl).symm k) = ix2 k f := by
    funext ax; apply Fin.ext
    match ax with
    | ⟨0, _⟩ => exact (rhs_axis0 _ _).trans hk
    | ⟨1, _⟩ => exact rhs_axis1 _ _
  rw [hl, hr]

/-- The sum over the 512 rows, at column f. -/
theorem lane_sum (src : FVec Ideal S512x2048 .f32) (hacc : (0x00000000#32 : BitVec 32) = 0x00000000#32) (f : Fin 2048) :
    multiReduction (F := Ideal) .add [0] S2048 src 0x00000000#32 reduces_S512x2048_S2048 (.inl rfl) hacc (ix1 f)
      = ∑ q : Fin 512, src (ix2 q f) := by
  refine (Ideal.multiReduction_add_single src 0x00000000#32 reduces_S512x2048_S2048 (.inl rfl) hacc (ix1 f)).trans ?_
  show ∑ q : Fin 512, src (reduces_S512x2048_S2048.lift (ix1 f) q) = _
  refine Finset.sum_congr rfl fun q _ => congrArg src ?_
  funext a
  match a with
  | ⟨0, _⟩ => rfl
  | ⟨1, _⟩ => rfl

/-- The row-0 test: the equality bit of the row's word against the zero word selects the first operand in row 0 only. -/
theorem select_row0 {α : Type} (r : Fin 8) (A B : α) :
    Scalar.select (IntOp.cmpi .eq (BitVec.ofNat 32 r.val) 0#32) A B = if r.val = 0 then A else B := by
  have hr := r.isLt
  by_cases h : r.val = 0
  · rw [if_pos h, h]; rfl
  · rw [if_neg h]
    have e : IntOp.cmpi .eq (BitVec.ofNat 32 r.val) 0#32 = 0#1 := by
      apply eq_zero_of_ne_one
      intro hc
      apply h
      have h2 : BitVec.ofNat 32 r.val = 0#32 := (cmpi_eq_one_iff _ _).mp hc
      have h3 := congrArg BitVec.toNat h2
      simp only [BitVec.toNat_ofNat, BitVec.toNat_ofNat] at h3
      omega
    rw [e]; exact select_zero A B

/-- The reset stores the zero block. -/
theorem pay1_apply (j : S8x2048.Idx) : (k0_pay1 (F := Ideal)) j = 0 := by
  unfold k0_pay1
  rw [shapeCast_self]
  exact Ideal.ofBits_zero_f32

/-- The accumulate step: the block already there plus, in row 0 only, the column sums over the tile's 512 rows of the
    squared difference between the sample and the one-hot product's row. -/
theorem pay2_apply (v3 : Vec Ideal S512x1 .i32) (v11 : Vec Ideal S1000x2048 .bf16) (v14 : Vec Ideal S512x2048 .f32)
    (v26 : Vec Ideal S8x2048 .f32) (r : Fin 8) (f : Fin 2048) :
    k0_pay2 v3 v11 v14 v26 (ix2 r f)
      = v26 (ix2 r f) + (if r.val = 0 then
          ∑ q : Fin 512, (v14 (ix2 q f) - ∑ k : Fin 1000, oh (v3 (ix2 q 0)) k * v11 (ix2 k f))
            * (v14 (ix2 q f) - ∑ k : Fin 1000, oh (v3 (ix2 q 0)) k * v11 (ix2 k f))
        else 0) := by
  unfold k0_pay2
  simp only [shapeCast_self]
  rw [addf_apply, select_apply]
  refine congrArg (v26 (ix2 r f) + ·) ?_
  show Scalar.select (IntOp.cmpi .eq (iota .tc S8x2048 32 [0] iota_S8x2048_d0_w32 (ix2 r f)) 0#32) _
    (Ideal.ofBits .f32 0x00000000#32) = _
  rw [iota_single_apply, Ideal.ofBits_zero_f32]
  show Scalar.select (IntOp.cmpi .eq (BitVec.ofNat 32 r.val) 0#32) _ 0 = _
  rw [select_row0]
  by_cases h : r.val = 0
  · rw [if_pos h, if_pos h, broadcastTo_1b_ab_apply, shapeCast_a_1a_apply]
    refine (lane_sum _ _ f).trans ?_
    refine Finset.sum_congr rfl fun q _ => ?_
    rw [mulf_apply, subf_apply, matmul_entry]
    have e : ∀ k : Fin 1000, (truncf .bf16 (sitofp .f32 (extui 32 (cmpi .eq (broadcastTo S512x1000 v3 broadcasts_S512x1_S512x1000)
        (iota .tc S512x1000 32 [1] iota_S512x1000_d1_w32)) natLt_1_32)) bitsLt_bf16_f32 : FVec Ideal S512x1000 .bf16) (ix2 q k)
          = oh (v3 (ix2 q 0)) k := fun k => onehot_apply v3 q k
    simp only [e]
  · rw [if_neg h, if_neg h]

end Cert.KernelIdeal.Pay

end
-- ==== Proof.Invariant.lean ====
import proofs.«429316_j15917148799632_3_alg».proof.Proof.Gen.KernelIdeal.Frame
import proofs.«429316_j15917148799632_3_alg».proof.Proof.Pieces
import proofs.«429316_j15917148799632_3_alg».proof.Proof.Blocks
import proofs.«429316_j15917148799632_3_alg».proof.Proof.Payload
import proofs.«429316_j15917148799632_3_alg».proof.Proof.Spec
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

set_option pp.maxSteps 5000
set_option pp.deepTerms false

/-!
  The accumulator across the grid. Grid point `t` is tile `t` (core `t / 16`, step `t % 16`). After point `t` the
  accumulator's row 0 holds, at feature `f`, the sum over the core's tiles so far of the tile's column sums of squared
  differences; its other rows hold zero. By induction on the point: a core's first tile starts from the zero block,
  every other tile adds to what the point before left.
-/

open scoped BigOperators

namespace Cert.KernelIdeal.KValue

open Cert.KernelIdeal Cert.KernelIdeal.Gen Idealize.ShloMosaic.ValueIdx Cert.CL Cert.KernelIdeal.Blocks

variable (m : (ℓ : Loc nD τ sig) → Buf (Elt Ideal) ℓ)

/-- The three argument arrays by coordinates. -/
def X (c : Dev nD) : Fin 16384 → Fin 2048 → EReal := fun R f => m ((c : Thread nD τ).loc main_arg0) (ix2 R f)
def LAB (c : Dev nD) : Fin 16384 → BitVec 32 := fun R => m ((c : Thread nD τ).loc main_arg1) (ix1 R)
def CEN (c : Dev nD) : Fin 1000 → Fin 2048 → EReal := fun k f => m ((c : Thread nD τ).loc main_arg2) (ix2 k f)
/-- The squared differences against the one-hot product's rows. -/
def E (c : Dev nD) : Fin 16384 → Fin 2048 → EReal := sqd (X m c) (gath (LAB m c) (CEN m c))

/-- A tile's column sums, by the tile's number (zero past the last tile, which no grid point reaches). -/
def partN (E : Fin 16384 → Fin 2048 → EReal) (s : ℕ) (f : Fin 2048) : EReal := if h : s < 32 then part E ⟨s, h⟩ f else 0

/-- The column sums the body forms from the three blocks of point `t` are tile `t`'s. -/
theorem tile_sum (c : Dev nD) (t : Fin cfg0.N) (f : Fin 2048) :
    (∑ q : Fin 512, (xblk m c t (ix2 q f) - ∑ k : Fin 1000, oh (lblk m c t (ix2 q 0)) k * cblk m c t (ix2 k f))
        * (xblk m c t (ix2 q f) - ∑ k : Fin 1000, oh (lblk m c t (ix2 q 0)) k * cblk m c t (ix2 k f)))
      = partN (E m c) t.val f := by
  have ht : t.val < 32 := lt_of_lt_of_eq t.isLt N_0
  unfold partN
  rw [dif_pos ht]
  unfold part
  refine Finset.sum_congr rfl fun q _ => ?_
  have hR : (row ⟨t.val, ht⟩ q).val = 512 * t.val + q.val := rfl
  rw [xblk_apply m c t q f _ hR, lblk_apply m c t q _ hR]
  simp only [cblk_apply m c t, truncf_apply]
  rfl

/-- One accumulate step at point `t` over any accumulator contents. -/
theorem step (c : Dev nD) (t : Fin cfg0.N) (xs : Vec Ideal S8x2048 .f32) (r : Fin 8) (f : Fin 2048) :
    k0_pay2 (lblk m c t) (cblk m c t) (xblk m c t) xs (ix2 r f)
      = xs (ix2 r f) + (if r.val = 0 then partN (E m c) t.val f else 0) := by
  rw [Pay.pay2_apply, tile_sum]

/-- A core's first tile: the accumulator holds that tile's sums in row 0. -/
theorem acc_first (c : Dev nD) (t : Fin cfg0.N) (h0 : t.val % 16 = 0) (r : Fin 8) (f : Fin 2048) :
    (outsAt0 m c t.val t.isLt).2 (ix2 r f) = (if r.val = 0 then partN (E m c) t.val f else 0) := by
  have h1 : ¬t.val % 16 = 15 := by omega
  rw [outsAt0_A m c t h0 h1]
  dsimp only
  refine (congrFun (Pieces.sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 r f)).trans ?_
  refine (step m c t (k0_pay1 (F := Ideal)) r f).trans ?_
  rw [Pay.pay1_apply, zero_add]

/-- Any other tile: the accumulator holds what the point before left plus that tile's sums in row 0. -/
theorem acc_step (c : Dev nD) (t : Fin cfg0.N) (h0 : ¬t.val % 16 = 0) (r : Fin 8) (f : Fin 2048) :
    (outsAt0 m c t.val t.isLt).2 (ix2 r f)
      = (outsAt0 m c (t.val - 1) (Nat.lt_of_le_of_lt (Nat.sub_le _ _) t.isLt)).2 (ix2 r f) + (if r.val = 0 then partN (E m c) t.val f else 0) := by
  by_cases h1 : t.val % 16 = 15
  · rw [outsAt0_C m c t h0 h1]
    dsimp only
    refine (congrFun (Pieces.sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 r f)).trans ?_
    exact step m c t _ r f
  · rw [outsAt0_B m c t h0 h1]
    dsimp only
    refine (congrFun (Pieces.sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) (ix2 r f)).trans ?_
    exact step m c t _ r f

/-- At a core's last tile the output block is a copy of the accumulator. -/
theorem out_last (c : Dev nD) (t : Fin cfg0.N) (h1 : t.val % 16 = 15) :
    (outsAt0 m c t.val t.isLt).1 = (outsAt0 m c t.val t.isLt).2 := by
  have h0 : ¬t.val % 16 = 0 := by omega
  rw [outsAt0_C m c t h0 h1]
  dsimp only
  rw [Pieces.out_C, Pieces.sout_C]

/-- The accumulator after point `n`: row 0 the sums of the core's tiles so far, the other rows zero. -/
def accSpec (c : Dev nD) (n : ℕ) (r : Fin 8) (f : Fin 2048) : EReal :=
  if r.val = 0 then ∑ j ∈ Finset.range (n % 16 + 1), partN (E m c) (16 * (n / 16) + j) f else 0

theorem acc_eq (c : Dev nD) : ∀ (n : ℕ) (hn : n < cfg0.N) (r : Fin 8) (f : Fin 2048),
    (outsAt0 m c n hn).2 (ix2 r f) = accSpec m c n r f := by
  intro n
  induction n with
  | zero =>
    intro hn r f
    refine (acc_first m c ⟨0, hn⟩ (Nat.zero_mod _) r f).trans ?_
    unfold accSpec
    by_cases hr : r.val = 0
    · rw [if_pos hr, if_pos hr]; simp
    · rw [if_neg hr, if_neg hr]
  | succ n ih =>
    intro hn r f
    by_cases h0 : (n + 1) % 16 = 0
    · refine (acc_first m c ⟨n + 1, hn⟩ h0 r f).trans ?_
      unfold accSpec
      by_cases hr : r.val = 0
      · rw [if_pos hr, if_pos hr, h0, Finset.sum_range_one]
        have : 16 * ((n + 1) / 16) + 0 = n + 1 := by omega
        rw [this]
      · rw [if_neg hr, if_neg hr]
    · refine (acc_step m c ⟨n + 1, hn⟩ h0 r f).trans ?_
      have e := ih (Nat.lt_of_succ_lt hn) r f
      refine (congrArg (· + (if r.val = 0 then partN (E m c) (n + 1) f else 0)) e).trans ?_
      unfold accSpec
      by_cases hr : r.val = 0
      · rw [if_pos hr, if_pos hr, if_pos hr]
        have e1 : (n + 1) % 16 + 1 = (n % 16 + 1) + 1 := by omega
        have e2 : 16 * ((n + 1) / 16) = 16 * (n / 16) := by omega
        have e3 : 16 * (n / 16) + (n % 16 + 1) = n + 1 := by omega
        rw [e1, e2, Finset.sum_range_succ _ (n % 16 + 1), e3]
      · rw [if_neg hr, if_neg hr, if_neg hr, add_zero]

end Cert.KernelIdeal.KValue

end
-- ==== Proof.Algebra.lean ====
/-
  Three facts about the sums of Spec.lean, over the extended reals (sums there re-associate and commute freely;
  no finiteness is used).
-/
import proofs.«429316_j15917148799632_3_alg».proof.Proof.Spec
import Idealize.ShloMosaic.PureOps.Ideal
import Idealize.ShloMosaic.PureOps.Ideal.Laws

noncomputable section

open scoped BigOperators
open Idealize.ShloMosaic

namespace Cert.CL

/-- Where the label word of sample `R` is the class `l`, the one-hot product picks row `l` of the table. -/
theorem gath_eq (lab : Fin 16384 → BitVec 32) (c : Fin 1000 → Fin 2048 → EReal) (R : Fin 16384) (f : Fin 2048)
    (l : Fin 1000) (h : lab R = BitVec.ofNat 32 l.val) : gath lab c R f = c l f := by
  unfold gath
  rw [Finset.sum_eq_single l]
  · rw [oh, if_pos h, one_mul]
  · intro k _ hk
    have hne : lab R ≠ BitVec.ofNat 32 k.val := by
      rw [h]
      intro heq
      apply hk
      have hv := congrArg BitVec.toNat heq
      simp only [BitVec.toNat_ofNat] at hv
      have hl := l.isLt
      have hk' := k.isLt
      apply Fin.ext
      omega
    rw [oh, if_neg hne, zero_mul]
  · intro hl
    exact absurd (Finset.mem_univ l) hl

/-- (tile, row) ↦ sample `512 s + q` is a bijection of `32 × 512` with the 16384 samples. -/
theorem row_bijective : Function.Bijective (fun p : Fin 32 × Fin 512 => row p.1 p.2) := by
  constructor
  · rintro ⟨s, q⟩ ⟨s', q'⟩ h
    have hv := congrArg Fin.val h
    simp only [row] at hv
    have := s.isLt
    have := q.isLt
    have := s'.isLt
    have := q'.isLt
    have h1 : s.val = s'.val := by omega
    have h2 : q.val = q'.val := by omega
    exact Prod.ext (Fin.ext h1) (Fin.ext h2)
  · intro R
    have hR := R.isLt
    refine ⟨(⟨R.val / 512, by omega⟩, ⟨R.val % 512, by omega⟩), ?_⟩
    apply Fin.ext
    simp only [row]
    omega

/-- (core, tile of the core) ↦ tile `16 o + j` is a bijection of `2 × 16` with the 32 tiles. -/
theorem tile_bijective : Function.Bijective (fun p : Fin 2 × Fin 16 => tile p.1 p.2) := by
  constructor
  · rintro ⟨o, j⟩ ⟨o', j'⟩ h
    have hv := congrArg Fin.val h
    simp only [tile] at hv
    have := o.isLt
    have := j.isLt
    have := o'.isLt
    have := j'.isLt
    have h1 : o.val = o'.val := by omega
    have h2 : j.val = j'.val := by omega
    exact Prod.ext (Fin.ext h1) (Fin.ext h2)
  · intro s
    have hs := s.isLt
    refine ⟨(⟨s.val / 16, by omega⟩, ⟨s.val % 16, by omega⟩), ?_⟩
    apply Fin.ext
    simp only [tile]
    omega

/-- Summing over tiles and rows of a tile is summing over the samples. -/
theorem sum_tile_row (G : Fin 16384 → EReal) : ∑ s : Fin 32, ∑ q : Fin 512, G (row s q) = ∑ R : Fin 16384, G R := by
  rw [← Fintype.sum_prod_type' (f := fun s q => G (row s q))]
  exact Fintype.sum_bijective _ row_bijective _ _ (fun _ => rfl)

/-- Summing over cores and tiles of a core is summing over the 32 tiles. -/
theorem sum_core_tile (H : Fin 32 → EReal) : ∑ o : Fin 2, ∑ j : Fin 16, H (tile o j) = ∑ s : Fin 32, H s := by
  rw [← Fintype.sum_prod_type' (f := fun o j => H (tile o j))]
  exact Fintype.sum_bijective _ tile_bijective _ _ (fun _ => rfl)

/-- Of the sixteen rows of the result only rows 0 and 8 are non-zero: one per core. -/
theorem sum_rows_outArr (E : Fin 16384 → Fin 2048 → EReal) (f : Fin 2048) :
    ∑ r : Fin 16, outArr E r f = ∑ o : Fin 2, ∑ j : Fin 16, part E (tile o j) f := by
  have hfil : (Finset.univ.filter (fun r : Fin 16 => r.val % 8 = 0)) = {0, 8} := by decide
  simp only [outArr]
  rw [Finset.sum_ite, Finset.sum_const_zero, add_zero, hfil, Finset.sum_pair (by decide), Fin.sum_univ_two]
  rfl

/-- Summing the kernel's 16 × 2048 result array is summing every sample and feature once: tile `16 o + j`, row `q`
    is sample `512 (16 o + j) + q`, a bijection of (o, j, q) with the 16384 samples. -/
theorem sum_outArr (E : Fin 16384 → Fin 2048 → EReal) :
    ∑ r : Fin 16, ∑ f : Fin 2048, outArr E r f = total E := by
  unfold total
  rw [Finset.sum_comm, Finset.sum_comm (f := fun R f => E R f)]
  refine Finset.sum_congr rfl (fun f _ => ?_)
  rw [sum_rows_outArr, sum_core_tile (fun s => part E s f)]
  exact sum_tile_row (fun R => E R f)

/-- The f32 word `0x40000000` is the real 2. -/
theorem ofBits_two : Ideal.ofBits .f32 0x40000000#32 = ((2 : ℝ) : EReal) := by
  unfold Ideal.ofBits Ideal.ieee
  simp
  rw [← EReal.coe_mul]
  norm_num

/-- The f32 word `0x46800000` is the real 16384. -/
theorem ofBits_16384 : Ideal.ofBits .f32 0x46800000#32 = ((16384 : ℝ) : EReal) := by
  unfold Ideal.ofBits Ideal.ieee
  simp
  rw [← EReal.coe_mul]
  norm_num

/-- The f32 word `0x47000000` is the real 32768. -/
theorem ofBits_32768 : Ideal.ofBits .f32 0x47000000#32 = ((32768 : ℝ) : EReal) := by
  unfold Ideal.ofBits Ideal.ieee
  simp
  rw [← EReal.coe_mul]
  norm_num

/-- Dividing by 2 and then by 16384 is dividing by 32768 (the words are the f32 2.0, 16384.0 and 32768.0). -/
theorem div_div (t : EReal) :
    Ideal.div (Ideal.div t (Ideal.ofBits .f32 0x40000000#32)) (Ideal.ofBits .f32 0x46800000#32)
      = Ideal.div t (Ideal.ofBits .f32 0x47000000#32) := by
  rw [ofBits_two, ofBits_16384, ofBits_32768,
    Ideal.div_coe (by norm_num : (2 : ℝ) ≠ 0), Ideal.div_coe (by norm_num : (16384 : ℝ) ≠ 0),
    Ideal.div_coe (by norm_num : (32768 : ℝ) ≠ 0), mul_assoc, ← EReal.coe_mul]
  norm_num

end Cert.CL

end
-- ==== Proof.KernelRun.lean ====
import proofs.«429316_j15917148799632_3_alg».proof.Proof.Gen.KernelIdeal.Frame
import proofs.«429316_j15917148799632_3_alg».proof.Proof.Invariant
import proofs.«429316_j15917148799632_3_alg».proof.Proof.Algebra
import Idealize.ShloMosaic.PureOps.Ideal.Laws
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

set_option pp.maxSteps 5000
set_option pp.deepTerms false

/-!
  The kernel's program read to its result. Each core writes its output block once, after its last tile, as a copy of
  the accumulator; the two blocks tile the 16 × 2048 result array, which therefore holds, in rows 0 and 8, the two
  cores' sums and zeros elsewhere. The host sums that array and divides by 32768: the loss.
-/

open scoped BigOperators

namespace Cert.KernelIdeal.KValue

open Cert.KernelIdeal Cert.KernelIdeal.Gen Idealize.ShloMosaic.ValueIdx Cert.CL Cert.KernelIdeal.Blocks

variable (m : (ℓ : Loc nD τ sig) → Buf (Elt Ideal) ℓ) (ρ : Dev nD → PrngReg)

/-- The accumulator at index `j`. -/
theorem acc_eq_idx (c : Dev nD) (n : ℕ) (hn : n < cfg0.N) (j : S8x2048.Idx) :
    (outsAt0 m c n hn).2 j = accSpec m c n (j 0) (j 1) := by
  exact (congrArg (outsAt0 m c n hn).2 (eq_ix2 j)).trans (acc_eq m c n hn (j 0) (j 1))

/-- After a core's sixteenth tile the accumulator is the core's block of the result array. -/
theorem accSpec_last (E : Fin 16384 → Fin 2048 → EReal) (a : ℕ) (ha : a < 2) (r : Fin 8) (f : Fin 2048) :
    (if r.val = 0 then ∑ j ∈ Finset.range 16, partN E (16 * a + j) f else 0)
      = outArr E ⟨8 * a + r.val, by have := r.isLt; omega⟩ f := by
  unfold outArr
  have hr := r.isLt
  by_cases h : r.val = 0
  · rw [if_pos h, if_pos (show (8 * a + r.val) % 8 = 0 by omega), Finset.sum_range]
    refine Finset.sum_congr rfl fun j _ => ?_
    have hj := j.isLt
    unfold partN
    rw [dif_pos (show 16 * a + j.val < 32 by omega)]
    exact congrArg (fun s => part E s f) (Fin.ext (show 16 * a + j.val = 16 * ((8 * a + r.val) / 8) + j.val by omega))
  · rw [if_neg h, if_neg (show ¬(8 * a + r.val) % 8 = 0 by omega)]

/-- The result array: the two cores' blocks. -/
def G (c : Dev nD) : Buf (Elt Ideal) ((c : Thread nD τ).loc main_v2) :=
  (fun j : S16x2048.Idx => outArr (E m c) ⟨(j 0).val, idx2_lt0 j⟩ ⟨(j 1).val, idx2_lt1 j⟩ : Vec Ideal S16x2048 .f32)

/-- The output window's block index at point `t`: the core's number along the rows. -/
theorem idx3_facts : ∀ t : Fin cfg0.N, win0_3.index t 0 = t.val / 16 ∧ win0_3.index t 1 = 0 :=
  (by decide +kernel : ∀ t : Fin grid0.N, win0_3.index t 0 = t.val / 16 ∧ win0_3.index t 1 = 0)

/-- What a core writes back after its last tile is its block of the result array. -/
theorem flushed_eq (c : Dev nD) (t : Fin cfg0.N) (hf : (cfg0.win 3).flush t = true) :
    (dats m 0 c).flushed 3 t = ((cfg0.win 3).blk t).view.read (Elt Ideal) (G m c) := by
  have h15 : t.val % 16 = 15 := (flush0_3 t).mp hf
  have ht : t.val < 32 := lt_of_lt_of_eq t.isLt N_0
  show (cfg0.win 3).cut (grid0.coords t) ((dats m 0 c).after 3 t) = _
  rw [after0_3, out_last m c t h15]
  funext j
  show (outsAt0 m c t.val t.isLt).2 j = G m c (((cfg0.win 3).blk t).view.emb j)
  rw [acc_eq_idx]
  have hj0 : (j 0).val < 8 := (j 0).isLt
  have hj1 : (j 1).val < 2048 := (j 1).isLt
  have e0 : (((cfg0.win 3).blk t).view.emb j 0).val = 8 * (t.val / 16) + (j 0).val := by
    show win0_3.index t 0 * 8 + 1 * (j 0).val = _
    rw [(idx3_facts t).1]; omega
  have e1 : (((cfg0.win 3).blk t).view.emb j 1).val = (j 1).val := by
    show win0_3.index t 1 * 2048 + 1 * (j 1).val = _
    rw [(idx3_facts t).2]; omega
  unfold accSpec
  have e16 : t.val % 16 + 1 = 16 := by omega
  rw [e16]
  refine (accSpec_last (E m c) (t.val / 16) (by omega) (j 0) (j 1)).trans ?_
  unfold G
  exact congrArg₂ (outArr (E m c)) (Fin.ext e0.symm) (Fin.ext e1.symm)

/-- An index of the result array is in point `t`'s block iff each coordinate is in the block's range on its axis. -/
theorem mem_blk3 (t : Fin cfg0.N) (i : S16x2048.Idx) :
    i ∈ ((cfg0.win 3).blk t).view.set ↔ ∀ a : Fin 2, win0_3.index t a * S8x2048.size a ≤ (i a).val ∧ (i a).val < win0_3.index t a * S8x2048.size a + S8x2048.size a := by
  show i ∈ ((View.whole main_v2).slice (win0_3.rect t)).set ↔ _
  rw [View.set_slice_whole, Rect.mem_set_unit]
  exact Iff.rfl

/-- Every row of the result array lies in the block of its core's last tile. -/
theorem cover (c : Dev nD) (i : S16x2048.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  let t : Fin cfg0.N := ⟨16 * ((i 0).val / 8) + 15, lt_of_lt_of_eq (by omega) N_0.symm⟩
  have htv : t.val = 16 * ((i 0).val / 8) + 15 := rfl
  refine ⟨t, (flush0_3 t).mpr (by rw [htv]; omega), ?_⟩
  rw [mem_blk3]
  intro a
  match a with
  | ⟨0, _⟩ =>
    show win0_3.index t 0 * 8 ≤ (i 0).val ∧ (i 0).val < win0_3.index t 0 * 8 + 8
    rw [(idx3_facts t).1, htv]; omega
  | ⟨1, _⟩ =>
    show win0_3.index t 1 * 2048 ≤ (i 1).val ∧ (i 1).val < win0_3.index t 1 * 2048 + 2048
    rw [(idx3_facts t).2]; omega

/-- The result array after the region. -/
theorem final (c : Dev nD) : (dats m 0 c).arrAt 3 cfg0.N = G m c :=
  (dats m 0 c).arrAt_eq_of_cover 3 (G m c) (flushed_eq m c) (cover c)

/-- The host's last two operations on the result array: its sum over 32768. -/
theorem tail_eq (c : Dev nD) :
    Pipeline.afterTail₀ cfgs (dats m) 0 (V0 m) [hostOps1] c main_v4 = fun _ => lossVal (E m c) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v2) = G m c :=
    (Pipeline.withArrays_arr spec0 launch0.win.arr_inj c _ _ 3).trans (final m c)
  rw [hw]
  funext i
  show Ideal.div (Host.reduceAdd (F := Ideal) (G m c) (constant (F := Ideal) S_ .f32 0x00000000#32) reducesTo_S16x2048_S_d0_1 h_S_ i)
    (Ideal.ofBits .f32 0x47000000#32) = _
  unfold lossVal
  refine congrArg (fun t => Ideal.div t (Ideal.ofBits .f32 0x47000000#32)) ?_
  simp only [Host.reduceAdd, Ideal.hostReduceAdd_def]
  rw [Ideal.hostReduceAdd_total reducesTo_S16x2048_S_d0_1 (fun b => b.elim0), constant_apply, Ideal.ofBits_zero_f32, zero_add,
    sum_idx2]
  exact (Finset.sum_congr rfl fun a _ => Finset.sum_congr rfl fun b _ => rfl).trans (sum_outArr (E m c))

/-- The kernel's program, run: every execution ends with the result at the loss and the arguments unchanged. -/
theorem run : θ_run defs (onTc (τ := τ) (main (F := Ideal))) ⟨m, fun _ => 0, ρ⟩ fun r => ∀ c : Dev nD,
      r.2.mem ((c : Thread nD τ).loc main_v4) = (fun _ => lossVal (E m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v4 (Pipeline.mem_restRefs_of main_v4 (by decide) (by decide))).trans (tail_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.KValue

end
-- ==== Proof.RefValue.lean ====
/-
  The reference's result read as the loss of Spec.lean: under labels in range the host's row gather reads the
  labelled row of the table, which is what the one-hot product picks; the host's sum over both axes is the total.
-/
import proofs.«429316_j15917148799632_3_alg».proof.Defs
import proofs.«429316_j15917148799632_3_alg».proof.Proof.Gen.ReferenceIdeal.Run
import proofs.«429316_j15917148799632_3_alg».proof.Proof.Gen.ReferenceIdeal.Read
import proofs.«429316_j15917148799632_3_alg».proof.Proof.Spec
import proofs.«429316_j15917148799632_3_alg».proof.Proof.Algebra
import Idealize.ShloMosaic.Lib.ValueIdx
import Idealize.ShloMosaic.Lib.Pipeline.Value
import Idealize.ShloMosaic.PureOps.Ideal.Laws
import Idealize.ShloMosaic.Lib.StableHlo.Predicate

noncomputable section

open scoped BigOperators
open Idealize.ShloMosaic Idealize.ShloMosaic.ValueIdx

namespace Cert.ReferenceIdeal.RefValue

open Cert.ReferenceIdeal Cert.ReferenceIdeal.Gen Cert.CL

/-- The reference's result as a function of its three argument arrays: the term its run ends at. -/
def refTerm (x : FVec Ideal S16384x2048 .f32) (lab : IVec S16384 32) (c : FVec Ideal S1000x2048 .f32) : FVec Ideal S_ .f32 :=
  Host.divf (F := Ideal) (Host.divf (F := Ideal) (Host.reduceAdd (F := Ideal) (mulf (subf x (Host.gather gather_S1000x2048_S16384x1_S16384x2048_1_0_n_n_0_1_12048 c (broadcastInDim S16384x1 ![0] bcast_S16384_S16384x1_0 (select (cmpi .slt lab (broadcastInDim S16384 ![] bcast_S_S16384 (constantI S_ 32 0#32))) (addi lab (broadcastInDim S16384 ![] bcast_S_S16384 (constantI S_ 32 1000#32))) lab)))) (subf x (Host.gather gather_S1000x2048_S16384x1_S16384x2048_1_0_n_n_0_1_12048 c (broadcastInDim S16384x1 ![0] bcast_S16384_S16384x1_0 (select (cmpi .slt lab (broadcastInDim S16384 ![] bcast_S_S16384 (constantI S_ 32 0#32))) (addi lab (broadcastInDim S16384 ![] bcast_S_S16384 (constantI S_ 32 1000#32))) lab))))) (constant (F := Ideal) S_ .f32 0x00000000#32) reducesTo_S16384x2048_S_d0_1 h_S_) (constant (F := Ideal) S_ .f32 0x40000000#32)) (constant (F := Ideal) S_ .f32 0x46800000#32)

/-- A class word (below 1000) is non-negative read signed: its signed compare against zero is the bit 0. -/
theorem slt_zero (l : Fin 1000) : IntOp.cmpi .slt (BitVec.ofNat 32 l.val) 0#32 = 0#1 := by
  apply eq_zero_of_ne_one
  intro h
  have hl := l.isLt
  have h' := (StableHlo.Predicate.slt_iff_toNat (a := BitVec.ofNat 32 l.val) (b := 0#32)
    (by rw [BitVec.toNat_ofNat]; omega) (by decide)).1 h
  simp at h'

/-- A class word read signed and clamped into the table's rows is the class. -/
theorem clamp_class (l : Fin 1000) : min (BitVec.ofNat 32 l.val).toInt.toNat (1000 - 1) = l.val := by
  have hl := l.isLt
  rw [StableHlo.Predicate.toInt_ofNat_small l.val (by omega)]
  simp only [Int.toNat_natCast]
  omega

/-- With every label a class word, the negative-label wrap is never taken: the selected labels are the labels. -/
theorem sel_eq (lab : IVec S16384 32) (hlab : ∀ R : Fin 16384, ∃ l : Fin 1000, lab (ix1 R) = BitVec.ofNat 32 l.val) :
    select (cmpi .slt lab (broadcastInDim S16384 ![] bcast_S_S16384 (constantI S_ 32 0#32)))
      (addi lab (broadcastInDim S16384 ![] bcast_S_S16384 (constantI S_ 32 1000#32))) lab = lab := by
  funext i
  obtain ⟨R, rfl⟩ : ∃ R : Fin 16384, i = ix1 R := ⟨i 0, eq_ix1 i⟩
  obtain ⟨l, hl⟩ := hlab R
  rw [select_apply]
  show Scalar.select (IntOp.cmpi .slt (lab (ix1 R)) 0#32) _ (lab (ix1 R)) = lab (ix1 R)
  rw [hl, slt_zero l, select_zero]

/-- The labels laid as a column read, at row R, the label of R. -/
theorem bc_col (v : IVec S16384 32) (R : Fin 16384) :
    broadcastInDim S16384x1 ![0] bcast_S16384_S16384x1_0 v (ix2 R (0 : Fin 1)) = v (ix1 R) := by
  refine broadcastInDim_apply _ bcast_S16384_S16384x1_0 v (ix2 R (0 : Fin 1)) (ix1 R) (fun a => ?_)
  match a with
  | ⟨0, _⟩ => show R.val = if (16384 : Nat) = 1 then 0 else R.val; rw [if_neg (by decide)]

local notation "GD" => gather_S1000x2048_S16384x1_S16384x2048_1_0_n_n_0_1_12048

/-- THE ROW GATHER READ AT (R, f): where the start index of row R is the class word l, the table's entry (l, f).
    Operand axis 0 is collapsed and start-indexed: it gets the start index read signed and clamped into [0, 999], and
    no offset; operand axis 1 gets start 0 and the offset f. -/
theorem gat {α : Type} (c : S1000x2048.Idx → α) (idx : IVec S16384x1 32) (R : Fin 16384) (f : Fin 2048) (l : Fin 1000)
    (h : idx (ix2 R (0 : Fin 1)) = BitVec.ofNat 32 l.val) :
    Host.gather GD c idx (ix2 R f) = c (ix2 l f) := by
  unfold Host.gather
  congr 1
  funext a
  refine Fin.ext ?_
  match a with
  | ⟨0, _⟩ =>
    show GatherDims.start GD (ix2 R f) idx 0 + GatherDims.batchCoord GD (ix2 R f) 0 + GatherDims.offCoord GD (ix2 R f) 0 = l.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap GD from List.mem_singleton.mpr rfl)]
    have hsi : GatherDims.siIdx GD (ix2 R f) ⟨List.idxOf (0 : Fin 2) (GatherDims.startIndexMap GD),
        List.idxOf_lt_length_iff.2 (List.mem_singleton.mpr rfl)⟩ = ix2 R (0 : Fin 1) := by
      funext b; refine Fin.ext ?_
      match b with
      | ⟨0, _⟩ => rfl
      | ⟨1, _⟩ => rfl
    rw [hsi, h]
    exact clamp_class l
  | ⟨1, _⟩ =>
    show GatherDims.start GD (ix2 R f) idx 1 + GatherDims.batchCoord GD (ix2 R f) 1 + GatherDims.offCoord GD (ix2 R f) 1 = f.val
    rw [GatherDims.batchCoord_eq_zero _ _ _ List.not_mem_nil]
    have hs : GatherDims.start GD (ix2 R f) idx 1 = 0 := by
      unfold GatherDims.start
      rw [dif_neg (show (1 : Fin 2) ∉ GatherDims.startIndexMap GD from by decide)]
    have ho : GatherDims.offCoord GD (ix2 R f) 1 = f.val := by
      unfold GatherDims.offCoord
      rw [dif_pos (show (1 : Fin 2) ∈ GatherDims.sKept GD from by decide)]
      rfl
    rw [hs, ho]; omega

/-- With every label word a class in range, the reference's result is the loss of the squared differences against the
    one-hot product's rows. -/
theorem refTerm_eq (x : FVec Ideal S16384x2048 .f32) (lab : IVec S16384 32) (c : FVec Ideal S1000x2048 .f32)
    (hlab : ∀ R : Fin 16384, ∃ l : Fin 1000, lab (ix1 R) = BitVec.ofNat 32 l.val) :
    refTerm x lab c = fun _ => lossVal (sqd (fun R f => x (ix2 R f)) (gath (fun R => lab (ix1 R)) (fun k f => c (ix2 k f)))) := by
  funext i
  unfold refTerm
  rw [sel_eq lab hlab]
  show Ideal.div (Ideal.div (Host.reduceAdd (F := Ideal) _ (constant (F := Ideal) S_ .f32 0x00000000#32) reducesTo_S16384x2048_S_d0_1 h_S_ i)
    (Ideal.ofBits .f32 0x40000000#32)) (Ideal.ofBits .f32 0x46800000#32) = _
  rw [div_div]
  unfold lossVal
  refine congrArg (fun t => Ideal.div t (Ideal.ofBits .f32 0x47000000#32)) ?_
  simp only [Host.reduceAdd, Ideal.hostReduceAdd_def]
  rw [Ideal.hostReduceAdd_total reducesTo_S16384x2048_S_d0_1 (fun b => b.elim0), constant_apply, Ideal.ofBits_zero_f32, zero_add,
    sum_idx2]
  unfold total
  refine Finset.sum_congr rfl (fun R _ => Finset.sum_congr rfl (fun f _ => ?_))
  obtain ⟨l, hl⟩ := hlab R
  rw [mulf_apply, subf_apply, gat c _ R f l ((bc_col lab R).trans hl)]
  unfold sqd
  rw [gath_eq (fun R => lab (ix1 R)) (fun k f => c (ix2 k f)) R f l hl]

end Cert.ReferenceIdeal.RefValue

end
-- ==== Proof.PreDecode.lean ====
/-
  The precondition read: its last two conjuncts say every label word is, as a signed integer, at least 0 and below
  1000, so it is the word of a class in range.
-/
import proofs.«429316_j15917148799632_3_alg».proof.Defs
import proofs.«429316_j15917148799632_3_alg».proof.Proof.Gen.Pre_finite_inputs
import Idealize.ShloMosaic.Lib.ValueIdx
import Idealize.ShloMosaic.Lib.ReduceAll
import Idealize.ShloMosaic.Lib.StableHlo.Predicate

noncomputable section

open Idealize.ShloMosaic Idealize.ShloMosaic.ValueIdx

namespace Cert.Pre_finite_inputs.Decode

open Cert.Pre_finite_inputs

/-- The scalar shape has one index. -/
instance scalarIdx_subsingleton : Subsingleton S_.Idx := ⟨fun a b => funext fun d => d.elim0⟩

/-- A 32-bit word that is, read signed, at least 0 and below 1000 has an unsigned value below 1000: a word whose top bit
    is set reads negative, so the first comparison rules it out, and below 2³¹ the two readings agree. -/
theorem toNat_lt_of_range (w : BitVec 32) (h0 : IntOp.cmpi .sge w 0#32 = 1#1) (h1 : IntOp.cmpi .slt w 1000#32 = 1#1) :
    w.toNat < 1000 := by
  rw [IntOp.cmpi_sge] at h0
  rw [IntOp.cmpi_slt] at h1
  have e0 : (0#32 : BitVec 32).toInt = 0 := by decide
  have e1 : (1000#32 : BitVec 32).toInt = 1000 := by decide
  rw [e0] at h0
  rw [e1] at h1
  have hw := w.isLt
  rw [BitVec.toInt_eq_toNat_cond] at h0 h1
  split at h0 <;> omega

/-- A word is the word of its own unsigned value. -/
theorem eq_ofNat_toNat (w : BitVec 32) : w = BitVec.ofNat 32 w.toNat := by
  apply BitVec.eq_of_toNat_eq
  rw [BitVec.toNat_ofNat]
  exact (Nat.mod_eq_of_lt w.isLt).symm

/-- Where the precondition holds, every label word is the word of a class below 1000. -/
theorem labels_of_pre (x : FVec Ideal S16384x2048 .f32) (lab : IVec S16384 32) (c : FVec Ideal S1000x2048 .f32)
    (h : Cert.Pre_finite_inputs.fn (F := Ideal) x lab c = fun _ => 1#1) :
    ∀ R : Fin 16384, ∃ l : Fin 1000, lab (ix1 R) = BitVec.ofNat 32 l.val := by
  intro R
  -- the predicate at its one index: a conjunction of four `all`s, of which the last two speak of the labels
  have e := congrFun h ix0
  dsimp only [fn, fn_part1] at e
  simp only [andi] at e
  rw [IntOp.andi_eq_one, IntOp.andi_eq_one] at e
  obtain ⟨⟨-, hge⟩, hlt⟩ := e
  -- each `all` that is 1 had a 1 at label R
  have g := Host.reduce_andi_all _ _ _ _ _ hge (ix1 R)
  have l := Host.reduce_andi_all _ _ _ _ _ hlt (ix1 R)
  -- the comparison at R is the comparison of the word at R with the broadcast scalar
  have g' : IntOp.cmpi .sge (lab (ix1 R)) 0#32 = 1#1 := by
    rw [← g]
    show _ = IntOp.cmpi .sge (lab (ix1 R)) _
    rw [StableHlo.Predicate.bcast_scalar _ Facts.h_S_]
    rfl
  have l' : IntOp.cmpi .slt (lab (ix1 R)) 1000#32 = 1#1 := by
    rw [← l]
    show _ = IntOp.cmpi .slt (lab (ix1 R)) _
    rw [StableHlo.Predicate.bcast_scalar _ Facts.h_S_]
    rfl
  exact ⟨⟨(lab (ix1 R)).toNat, toNat_lt_of_range _ g' l'⟩, eq_ofNat_toNat _⟩

end Cert.Pre_finite_inputs.Decode

end
-- ==== Proof.lean ====
/-
  The kernel and its reference compute one loss: half the mean over 16384 samples of the squared distance between a
  sample's 2048 features and the table row its label names,
      (∑ over samples R and features f of (x R f − c (label R) f)²) / 32768.
  The reference gathers the labelled rows and sums every squared difference, then divides by 2 and by 16384. The kernel
  multiplies each tile's one-hot label matrix into the table — for a label in 0 … 999 the product's row is the labelled
  row; for any other label it is the zero row, where the reference's gather wraps or clamps, which is why the statement
  carries the labels' range — accumulates each tile's column sums in row 0 of an 8-row accumulator, sixteen tiles per
  core, writes one block per core, and the host sums the 16 × 2048 result and divides by 32768. Over the extended reals
  sums re-associate and commute freely, a product with the one-hot row picks one entry (0 · c = 0 and 1 · c = c), and
  dividing by 2 and then by 16384 is dividing by 32768, so the two results are equal; no finiteness is used.
  Modules: Spec (the sums), Algebra (their laws), Payload (the body's stored value at an index), Pieces (what each
  control case leaves), Blocks (the input blocks against the arguments), Invariant (the accumulator across the grid),
  KernelRun (the result array, the host's tail, the run), RefValue (the reference's result), PreDecode (the labels'
  range out of the precondition).
-/
import proofs.«429316_j15917148799632_3_alg».proof.Defs
import proofs.«429316_j15917148799632_3_alg».proof.Proof.Gen.Kernel
import proofs.«429316_j15917148799632_3_alg».proof.Proof.Gen.Kernel.Skeleton
import proofs.«429316_j15917148799632_3_alg».proof.Proof.Gen.Kernel.Launch
import proofs.«429316_j15917148799632_3_alg».proof.Proof.Gen.Kernel.Points
import proofs.«429316_j15917148799632_3_alg».proof.Proof.Gen.Kernel.Frame
import proofs.«429316_j15917148799632_3_alg».proof.Proof.Gen.KernelIdeal
import proofs.«429316_j15917148799632_3_alg».proof.Proof.Gen.KernelIdeal.Skeleton
import proofs.«429316_j15917148799632_3_alg».proof.Proof.Gen.KernelIdeal.Launch
import proofs.«429316_j15917148799632_3_alg».proof.Proof.Gen.KernelIdeal.Points
import proofs.«429316_j15917148799632_3_alg».proof.Proof.Gen.KernelIdeal.Frame
import proofs.«429316_j15917148799632_3_alg».proof.Proof.Gen.ReferenceIdeal
import proofs.«429316_j15917148799632_3_alg».proof.Proof.Gen.ReferenceIdeal.Run
import proofs.«429316_j15917148799632_3_alg».proof.Proof.Gen.Pre_finite_inputs
import proofs.«429316_j15917148799632_3_alg».proof.Proof.KernelRun
import proofs.«429316_j15917148799632_3_alg».proof.Proof.RefValue
import proofs.«429316_j15917148799632_3_alg».proof.Proof.PreDecode
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the loss of the squared differences against the one-hot product's rows: the kernel by its run,
    the reference because the precondition puts every label in range. -/
theorem algebraic : Cert.algebraic_KernelIdeal_ReferenceIdeal := by
  intro m ρ m' ρ' hpre hagree
  refine ⟨fun c => (fun _ => Cert.CL.lossVal (Cert.KernelIdeal.KValue.E m c)), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.refTerm_eq _ _ _ (Cert.Pre_finite_inputs.Decode.labels_of_pre _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
